-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S64x4096 .f32) (main_arg1 : IVec S11008x4096 32) (main_arg2 : FVec F S11008 .f32) (main_arg3 : FVec F S16x4096 .f32) (main_arg4 : FVec F S11008x16 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S64x11008 : Shape := ⟨2, ![64, 11008]⟩
abbrev S256x4096 : Shape := ⟨2, ![256, 4096]⟩
abbrev S256x1 : Shape := ⟨2, ![256, 1]⟩
abbrev S256x16 : Shape := ⟨2, ![256, 16]⟩
abbrev S64x256 : Shape := ⟨2, ![64, 256]⟩
abbrev S4096x256 : Shape := ⟨2, ![4096, 256]⟩
abbrev S4096x16 : Shape := ⟨2, ![4096, 16]⟩
abbrev S64x16 : Shape := ⟨2, ![64, 16]⟩
abbrev S16x256 : Shape := ⟨2, ![16, 256]⟩

abbrev nBuf : Space → Nat
  | .hbm => 7
  | .vmem => 10
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x1, .f32⟩
  | .hbm, ⟨6, _⟩ => ⟨S64x11008, .f32⟩
  | .local _ .vmem, ⟨0, _⟩ => ⟨S64x4096, .f32⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S16x4096, .f32⟩
  | .local _ .vmem, ⟨6, _⟩ => ⟨S256x16, .f32⟩
  | .local _ .vmem, ⟨7, _⟩ => ⟨S256x16, .f32⟩
  | .local _ .vmem, ⟨8, _⟩ => ⟨S64x256, .f32⟩
  | .local _ .vmem, ⟨9, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S11008_S11008x1 : S11008.ShapeCasts S11008x1
  inb_S64x4096_S64x4096_0_0 : ∀ a, (![0, 0] : Fin 2 → Nat) a + S64x4096.size a ≤ S64x4096.size a
  h_S64x4096 : 0 < S64x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  transposes_S256x4096_p1_0_S4096x256 : S256x4096.Transposes [1, 0] S4096x256
  inb_S16x4096_S16x4096_0_0 : ∀ a, (![0, 0] : Fin 2 → Nat) a + S16x4096.size a ≤ S16x4096.size a
  h_S16x4096 : 0 < S16x4096.numel
  inb_S256x16_S256x16_0_0 : ∀ a, (![0, 0] : Fin 2 → Nat) a + S256x16.size a ≤ S256x16.size a
  h_S256x16 : 0 < S256x16.numel
  transposes_S16x4096_p1_0_S4096x16 : S16x4096.Transposes [1, 0] S4096x16
  transposes_S256x16_p1_0_S16x256 : S256x16.Transposes [1, 0] S16x256
  inb_S64x256_S64x256_0_0 : ∀ a, (![0, 0] : Fin 2 → Nat) a + S64x256.size a ≤ S64x256.size a
  h_S64x256 : 0 < S64x256.numel
  dot_S64x4096_S4096x256_S64x256_1_0_0_1_n_n_wf : DotDims.WF S64x4096 S4096x256 S64x256 [1] [0] [0] [1] [] []
  dot_S64x4096_S4096x16_S64x16_1_0_0_1_n_n_wf : DotDims.WF S64x4096 S4096x16 S64x16 [1] [0] [0] [1] [] []
  dot_S64x16_S16x256_S64x256_1_0_0_1_n_n_wf : DotDims.WF S64x16 S16x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .f32 = 32 ∨ (Rect.block (s := S11008x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x11008.size a
  hwx0_5 : ∀ i : grid0.Coords, EltTy.bits .f32 = 32 ∨ (Rect.block (s := S64x11008) S64x256.size (cc0_transform_5 i) (hinb0_5 i)).WholeWords (EltTy.packing .f32)

variable [Facts₀]

def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S4096x11008 : Shape := ⟨2, ![4096, 11008]⟩
abbrev S64x11008 : Shape := ⟨2, ![64, 11008]⟩
abbrev S4096x16 : Shape := ⟨2, ![4096, 16]⟩
abbrev S64x16 : Shape := ⟨2, ![64, 16]⟩
abbrev S16x11008 : Shape := ⟨2, ![16, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S4096x11008, .f32⟩
  | .hbm, ⟨10, _⟩ => ⟨S64x11008, .f32⟩
  | .hbm, ⟨11, _⟩ => ⟨S4096x16, .f32⟩
  | .hbm, ⟨12, _⟩ => ⟨S64x16, .f32⟩
  | .hbm, ⟨13, _⟩ => ⟨S16x11008, .f32⟩
  | .hbm, ⟨14, _⟩ => ⟨S64x11008, .f32⟩
  | .hbm, ⟨15, _⟩ => ⟨S_, .f32⟩
  | .hbm, ⟨16, _⟩ => ⟨S64x11008, .f32⟩
  | .hbm, ⟨17, _⟩ => ⟨S64x11008, .f32⟩
  | .hbm, ⟨18, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  transposes_S11008x4096_S4096x11008_1_0 : S11008x4096.Transposes [1, 0] S4096x11008
  transposes_S16x4096_S4096x16_1_0 : S16x4096.Transposes [1, 0] S4096x16
  transposes_S11008x16_S16x11008_1_0 : S11008x16.Transposes [1, 0] S16x11008
  bcast_S_S64x11008 : S_.BroadcastsInDim S64x11008 (![] : Fin 0 → Fin S64x11008.rank)
  dot_S64x4096_S4096x11008_S64x11008_1_0_0_1_n_n_wf : DotDims.WF S64x4096 S4096x11008 S64x11008 [1] [0] [0] [1] [] []
  dot_S64x4096_S4096x16_S64x16_1_0_0_1_n_n_wf : DotDims.WF S64x4096 S4096x16 S64x16 [1] [0] [0] [1] [] []
  dot_S64x16_S16x11008_S64x11008_1_0_0_1_n_n_wf : DotDims.WF S64x16 S16x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x16_S16x11008_S64x11008_1_0_0_1_n_n : DotDims S64x16 S16x11008 S64x11008 where
  lhsContracting := [1]
  rhsContracting := [0]
  lhsNonContracting := [0]
  rhsNonContracting := [1]
  lhsBatch := []
  rhsBatch := []
  wf := dot_S64x16_S16x11008_S64x11008_1_0_0_1_n_n_wf

class Facts : Prop extends Facts₀ where

variable [Facts]
-- ==== Proof.Spec.lean ====
/-
  What a quantized linear layer with a low-rank correction computes, over the extended reals.

  The inputs are the tokens `x` (64 × 4096), the integer weights `w` (11008 × 4096) with one scale per
  output feature, and the two low-rank factors `A` (16 × 4096) and `B` (11008 × 16). Entry (n, o) of the
  result is

      Σ_k x[n,k] · (w[o,k] · scale[o])  +  (Σ_r (Σ_k x[n,k] · A[r,k]) · B[o,r]) · 2,

  the integer weight read as the real number it denotes. The scale is taken as a function of the
  output feature alone, so that a scale held as a vector and a scale held as a one-column matrix
  both instantiate it.
-/
import Idealize.ShloMosaic.PureOps.Ideal
import Idealize.ShloMosaic.Lib.ValueIdx

noncomputable section

namespace Cert.QLora

open Idealize.ShloMosaic Idealize.ShloMosaic.ValueIdx

/-- The dequantized base product at (n, o): the row of `x` against row `o` of the scaled weights. -/
def base (x : FVec Ideal ⟨2, ![64, 4096]⟩ .f32) (w : IVec ⟨2, ![11008, 4096]⟩ 32) (scale : Fin 11008 → EReal)
    (n : Fin 64) (o : Fin 11008) : EReal :=
  ∑ k : Fin 4096, x (ix2 n k) * (FloatOps.sitofp (F := Ideal) .f32 (w (ix2 o k)) * scale o)

/-- The projection of token `n` onto the low-rank direction `r`. -/
def down (x : FVec Ideal ⟨2, ![64, 4096]⟩ .f32) (A : FVec Ideal ⟨2, ![16, 4096]⟩ .f32) (n : Fin 64) (r : Fin 16) : EReal :=
  ∑ k : Fin 4096, x (ix2 n k) * A (ix2 r k)

/-- The low-rank correction at (n, o), before its scaling by 2. -/
def lowRank (x : FVec Ideal ⟨2, ![64, 4096]⟩ .f32) (A : FVec Ideal ⟨2, ![16, 4096]⟩ .f32)
    (B : FVec Ideal ⟨2, ![11008, 16]⟩ .f32) (n : Fin 64) (o : Fin 11008) : EReal :=
  ∑ r : Fin 16, down x A n r * B (ix2 o r)

/-- Entry (n, o) of the layer's output. The factor 2 is kept as the float word both programs write. -/
def entry (x : FVec Ideal ⟨2, ![64, 4096]⟩ .f32) (w : IVec ⟨2, ![11008, 4096]⟩ 32) (scale : Fin 11008 → EReal)
    (A : FVec Ideal ⟨2, ![16, 4096]⟩ .f32) (B : FVec Ideal ⟨2, ![11008, 16]⟩ .f32) (n : Fin 64) (o : Fin 11008) : EReal :=
  base x w scale n o + lowRank x A B n o * Ideal.ofBits .f32 0x40000000#32

/-- The whole output array. -/
def output (x : FVec Ideal ⟨2, ![64, 4096]⟩ .f32) (w : IVec ⟨2, ![11008, 4096]⟩ 32) (scale : Fin 11008 → EReal)
    (A : FVec Ideal ⟨2, ![16, 4096]⟩ .f32) (B : FVec Ideal ⟨2, ![11008, 16]⟩ .f32) : FVec Ideal ⟨2, ![64, 11008]⟩ .f32 :=
  fun i => entry x w scale A B (i 0) (i 1)

theorem output_apply (x : FVec Ideal ⟨2, ![64, 4096]⟩ .f32) (w : IVec ⟨2, ![11008, 4096]⟩ 32) (scale : Fin 11008 → EReal)
    (A : FVec Ideal ⟨2, ![16, 4096]⟩ .f32) (B : FVec Ideal ⟨2, ![11008, 16]⟩ .f32) (n : Fin 64) (o : Fin 11008) :
    output x w scale A B (ix2 n o) = entry x w scale A B n o := rfl

end Cert.QLora

end
-- ==== Proof.RefValue.lean ====
/-
  The reference computes the specification.

  Its last stage, read one operation at a time, is at index (n, o) the sum over k of x[n,k] times
  the transposed, scaled weight at (k, o), plus twice the sum over r of the projection of token n
  onto direction r times the transposed factor B at (r, o). The transposes and the two broadcasts of
  the scale only rename indices; once each composed index is identified with the pair of coordinates
  it denotes, the term is the specification's entry, sum for sum.
-/
import proofs.«121538_j74844100100831_1_alg».proof.Proof.Gen.ReferenceIdeal.Read
import proofs.«121538_j74844100100831_1_alg».proof.Proof.Spec

noncomputable section

namespace Cert.ReferenceIdeal.RefValue

open Cert.ReferenceIdeal Cert.ReferenceIdeal.Read Idealize.ShloMosaic Idealize.ShloMosaic.ValueIdx

/-! ## The composed indices, as pairs of coordinates -/

/-- The left operand of the base product is read at (n, k). -/
theorem base_lhs (i : S64x11008.Idx) (k : Fin 4096) : lidx_main_v5 i k = ix2 (n0 := 64) (n1 := 4096) (i 0) k :=
  funext fun a => match a with | ⟨0, _⟩ => rfl | ⟨1, _⟩ => rfl

/-- Through the transpose, the right operand of the base product is the scaled weight at (o, k). -/
theorem base_rhs (i : S64x11008.Idx) (k : Fin 4096) :
    idx_main_v4 (ridx_main_v5 i k) = ix2 (n0 := 11008) (n1 := 4096) (i 1) k :=
  funext fun a => match a with | ⟨0, _⟩ => rfl | ⟨1, _⟩ => rfl

/-- Through the two broadcasts, the scale that multiplies weight (o, k) is the scale of feature o. -/
theorem base_scale (i : S64x11008.Idx) (k : Fin 4096) :
    idx_main_v1 (idx_main_v2 (ix2 (n0 := 11008) (n1 := 4096) (i 1) k)) = ix1 (n := 11008) (i 1) :=
  funext fun a => match a with | ⟨0, _⟩ => rfl

/-- The projection onto direction r reads the token at (n, k), -/
theorem down_lhs (i : S64x11008.Idx) (r : Fin 16) (k : Fin 4096) :
    lidx_main_v7 (lidx_main_v9 i r) k = ix2 (n0 := 64) (n1 := 4096) (i 0) k :=
  funext fun a => match a with | ⟨0, _⟩ => rfl | ⟨1, _⟩ => rfl

/-- and, through the transpose, the factor A at (r, k). -/
theorem down_rhs (i : S64x11008.Idx) (r : Fin 16) (k : Fin 4096) :
    idx_main_v6 (ridx_main_v7 (lidx_main_v9 i r) k) = ix2 (n0 := 16) (n1 := 4096) r k :=
  funext fun a => match a with | ⟨0, _⟩ => rfl | ⟨1, _⟩ => rfl

/-- Through the transpose, the factor B is read at (o, r). -/
theorem up_rhs (i : S64x11008.Idx) (r : Fin 16) :
    idx_main_v8 (ridx_main_v9 i r) = ix2 (n0 := 11008) (n1 := 16) (i 1) r :=
  funext fun a => match a with | ⟨0, _⟩ => rfl | ⟨1, _⟩ => rfl

/-! ## The last stage is the specification -/

/-- The reference's result, as a function of its five arguments, is the specified output with the
    scale of feature o the o-th entry of the scale vector. -/
theorem stage_eq_output (x0 : FVec Ideal S64x4096 .f32) (x1 : IVec S11008x4096 32) (x2 : FVec Ideal S11008 .f32)
    (x3 : FVec Ideal S16x4096 .f32) (x4 : FVec Ideal S11008x16 .f32) :
    val_main_v12 (F := Ideal) x0 x1 x2 x3 x4 = Cert.QLora.output x0 x1 (fun o => x2 (ix1 o)) x3 x4 := by
  funext i
  rw [val_main_v12_apply, val_main_v5_apply, val_main_v11_apply, val_main_v9_apply, val_main_v10_apply, val_main_cst_apply]
  simp only [val_main_v4_apply, val_main_v3_apply, val_main_v0_apply, val_main_v2_apply, val_main_v1_apply,
    val_main_v7_apply, val_main_v6_apply, val_main_v8_apply,
    base_lhs, base_rhs, base_scale, down_lhs, down_rhs, up_rhs]
  rfl

end Cert.ReferenceIdeal.RefValue

end
-- ==== Proof.KernelBody.lean ====
/-
  The kernel body's one store, read at an index.

  At a grid point the body holds the tokens `x` whole (64 × 4096), 256 rows of the integer weights
  with their 256 scales in a column, the factor `A` whole (16 × 4096) and 256 rows of the factor `B`.
  It forms three products into zero accumulators: the tokens against the transposed scaled weights,
  the tokens against the transposed `A`, and that projection against the transposed rows of `B`; it
  stores the first plus twice the third. Narrowing a float to a shorter format does nothing over the
  extended reals, so at (n, q) the stored value is

      Σ_k x[n,k] · (w[q,k] · s[q,0])  +  (Σ_r (Σ_k x[n,k] · A[r,k]) · B[q,r]) · 2.

  When the 256 rows are rows 256·b … 256·b + 255 of the whole arrays, that is the specification's entry
  (n, 256·b + q).
-/
import proofs.«121538_j74844100100831_1_alg».proof.Proof.Gen.KernelIdeal.Skeleton
import proofs.«121538_j74844100100831_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The three products, each read at an index -/

/-! ### Tokens (64 × 4096) against the transposed scaled weights (4096 × 256) -/

theorem lhs_base_0 (i : S64x256.Idx) (q : dot_S64x4096_S4096x256_S64x256_1_0_0_1_n_n.contr.Idx) :
    (dot_S64x4096_S4096x256_S64x256_1_0_0_1_n_n.lhsIdx i q 0).val = (i 0).val := by
  unfold DotDims.lhsIdx
  rw [dif_neg (show ¬(0 : Fin S64x4096.rank) ∈ dot_S64x4096_S4096x256_S64x256_1_0_0_1_n_n.lhsBatch by decide), dif_pos (show (0 : Fin S64x4096.rank) ∈ dot_S64x4096_S4096x256_S64x256_1_0_0_1_n_n.lhsNonContracting by decide)]
  rfl
theorem lhs_base_1 (i : S64x256.Idx) (q : dot_S64x4096_S4096x256_S64x256_1_0_0_1_n_n.contr.Idx) :
    (dot_S64x4096_S4096x256_S64x256_1_0_0_1_n_n.lhsIdx i q 1).val = (q ⟨0, by decide⟩).val :=
  dot_S64x4096_S4096x256_S64x256_1_0_0_1_n_n.lhsIdx_val_of_single rfl i q
theorem rhs_base_0 (i : S64x256.Idx) (q : dot_S64x4096_S4096x256_S64x256_1_0_0_1_n_n.contr.Idx) :
    (dot_S64x4096_S4096x256_S64x256_1_0_0_1_n_n.rhsIdx i q 0).val = (q ⟨0, by decide⟩).val :=
  dot_S64x4096_S4096x256_S64x256_1_0_0_1_n_n.rhsIdx_val_of_single rfl i q
theorem rhs_base_1 (i : S64x256.Idx) (q : dot_S64x4096_S4096x256_S64x256_1_0_0_1_n_n.contr.Idx) :
    (dot_S64x4096_S4096x256_S64x256_1_0_0_1_n_n.rhsIdx i q 1).val = (i 1).val := by
  unfold DotDims.rhsIdx
  rw [dif_neg (show ¬(1 : Fin S4096x256.rank) ∈ dot_S64x4096_S4096x256_S64x256_1_0_0_1_n_n.rhsBatch by decide), dif_pos (show (1 : Fin S4096x256.rank) ∈ dot_S64x4096_S4096x256_S64x256_1_0_0_1_n_n.rhsNonContracting by decide)]
  rfl

/-- Into the zero accumulator the product at (a, b) is the sum over the 4096 inner positions of the
    left operand at (a, k) times the right operand at (k, b). -/
theorem base_apply {φ₁ φ₂ : FTy} (L : FVec Ideal S64x4096 φ₁) (R : FVec Ideal S4096x256 φ₂) (a : Fin 64) (b : Fin 256) :
    matmul (F := Ideal) dot_S64x4096_S4096x256_S64x256_1_0_0_1_n_n none L R (constant (F := Ideal) S64x256 .f32 0x00000000#32) (ix2 a b)
      = ∑ k : Fin 4096, L (ix2 a k) * R (ix2 k b) := by
  simp only [matmul]
  rw [Ideal.matmul_constant_zero_apply, ← Equiv.sum_comp (contrEquiv1 dot_S64x4096_S4096x256_S64x256_1_0_0_1_n_n 4096 rfl rfl).symm]
  refine Finset.sum_congr rfl fun k _ => ?_
  have hk := contrEquiv1_symm_val dot_S64x4096_S4096x256_S64x256_1_0_0_1_n_n 4096 rfl rfl k
  have el : dot_S64x4096_S4096x256_S64x256_1_0_0_1_n_n.lhsIdx (ix2 a b) ((contrEquiv1 dot_S64x4096_S4096x256_S64x256_1_0_0_1_n_n 4096 rfl rfl).symm k) = ix2 (n0 := 64) (n1 := 4096) a k := funext fun c => Fin.ext (by
    match c with
    | ⟨0, _⟩ => exact lhs_base_0 _ _
    | ⟨1, _⟩ => exact (lhs_base_1 _ _).trans hk)
  have er : dot_S64x4096_S4096x256_S64x256_1_0_0_1_n_n.rhsIdx (ix2 a b) ((contrEquiv1 dot_S64x4096_S4096x256_S64x256_1_0_0_1_n_n 4096 rfl rfl).symm k) = ix2 (n0 := 4096) (n1 := 256) k b := funext fun c => Fin.ext (by
    match c with
    | ⟨0, _⟩ => exact (rhs_base_0 _ _).trans hk
    | ⟨1, _⟩ => exact rhs_base_1 _ _)
  rw [el, er]

/-! ### Tokens (64 × 4096) against the transposed factor A (4096 × 16) -/

theorem lhs_down_0 (i : S64x16.Idx) (q : dot_S64x4096_S4096x16_S64x16_1_0_0_1_n_n.contr.Idx) :
    (dot_S64x4096_S4096x16_S64x16_1_0_0_1_n_n.lhsIdx i q 0).val = (i 0).val := by
  unfold DotDims.lhsIdx
  rw [dif_neg (show ¬(0 : Fin S64x4096.rank) ∈ dot_S64x4096_S4096x16_S64x16_1_0_0_1_n_n.lhsBatch by decide), dif_pos (show (0 : Fin S64x4096.rank) ∈ dot_S64x4096_S4096x16_S64x16_1_0_0_1_n_n.lhsNonContracting by decide)]
  rfl
theorem lhs_down_1 (i : S64x16.Idx) (q : dot_S64x4096_S4096x16_S64x16_1_0_0_1_n_n.contr.Idx) :
    (dot_S64x4096_S4096x16_S64x16_1_0_0_1_n_n.lhsIdx i q 1).val = (q ⟨0, by decide⟩).val :=
  dot_S64x4096_S4096x16_S64x16_1_0_0_1_n_n.lhsIdx_val_of_single rfl i q
theorem rhs_down_0 (i : S64x16.Idx) (q : dot_S64x4096_S4096x16_S64x16_1_0_0_1_n_n.contr.Idx) :
    (dot_S64x4096_S4096x16_S64x16_1_0_0_1_n_n.rhsIdx i q 0).val = (q ⟨0, by decide⟩).val :=
  dot_S64x4096_S4096x16_S64x16_1_0_0_1_n_n.rhsIdx_val_of_single rfl i q
theorem rhs_down_1 (i : S64x16.Idx) (q : dot_S64x4096_S4096x16_S64x16_1_0_0_1_n_n.contr.Idx) :
    (dot_S64x4096_S4096x16_S64x16_1_0_0_1_n_n.rhsIdx i q 1).val = (i 1).val := by
  unfold DotDims.rhsIdx
  rw [dif_neg (show ¬(1 : Fin S4096x16.rank) ∈ dot_S64x4096_S4096x16_S64x16_1_0_0_1_n_n.rhsBatch by decide), dif_pos (show (1 : Fin S4096x16.rank) ∈ dot_S64x4096_S4096x16_S64x16_1_0_0_1_n_n.rhsNonContracting by decide)]
  rfl

/-- Into the zero accumulator the product at (a, b) is the sum over the 4096 inner positions of the
    left operand at (a, k) times the right operand at (k, b). -/
theorem down_apply {φ₁ φ₂ : FTy} (L : FVec Ideal S64x4096 φ₁) (R : FVec Ideal S4096x16 φ₂) (a : Fin 64) (b : Fin 16) :
    matmul (F := Ideal) dot_S64x4096_S4096x16_S64x16_1_0_0_1_n_n none L R (constant (F := Ideal) S64x16 .f32 0x00000000#32) (ix2 a b)
      = ∑ k : Fin 4096, L (ix2 a k) * R (ix2 k b) := by
  simp only [matmul]
  rw [Ideal.matmul_constant_zero_apply, ← Equiv.sum_comp (contrEquiv1 dot_S64x4096_S4096x16_S64x16_1_0_0_1_n_n 4096 rfl rfl).symm]
  refine Finset.sum_congr rfl fun k _ => ?_
  have hk := contrEquiv1_symm_val dot_S64x4096_S4096x16_S64x16_1_0_0_1_n_n 4096 rfl rfl k
  have el : dot_S64x4096_S4096x16_S64x16_1_0_0_1_n_n.lhsIdx (ix2 a b) ((contrEquiv1 dot_S64x4096_S4096x16_S64x16_1_0_0_1_n_n 4096 rfl rfl).symm k) = ix2 (n0 := 64) (n1 := 4096) a k := funext fun c => Fin.ext (by
    match c with
    | ⟨0, _⟩ => exact lhs_down_0 _ _
    | ⟨1, _⟩ => exact (lhs_down_1 _ _).trans hk)
  have er : dot_S64x4096_S4096x16_S64x16_1_0_0_1_n_n.rhsIdx (ix2 a b) ((contrEquiv1 dot_S64x4096_S4096x16_S64x16_1_0_0_1_n_n 4096 rfl rfl).symm k) = ix2 (n0 := 4096) (n1 := 16) k b := funext fun c => Fin.ext (by
    match c with
    | ⟨0, _⟩ => exact (rhs_down_0 _ _).trans hk
    | ⟨1, _⟩ => exact rhs_down_1 _ _)
  rw [el, er]

/-! ### The projection (64 × 16) against the transposed rows of the factor B (16 × 256) -/

theorem lhs_up_0 (i : S64x256.Idx) (q : dot_S64x16_S16x256_S64x256_1_0_0_1_n_n.contr.Idx) :
    (dot_S64x16_S16x256_S64x256_1_0_0_1_n_n.lhsIdx i q 0).val = (i 0).val := by
  unfold DotDims.lhsIdx
  rw [dif_neg (show ¬(0 : Fin S64x16.rank) ∈ dot_S64x16_S16x256_S64x256_1_0_0_1_n_n.lhsBatch by decide), dif_pos (show (0 : Fin S64x16.rank) ∈ dot_S64x16_S16x256_S64x256_1_0_0_1_n_n.lhsNonContracting by decide)]
  rfl
theorem lhs_up_1 (i : S64x256.Idx) (q : dot_S64x16_S16x256_S64x256_1_0_0_1_n_n.contr.Idx) :
    (dot_S64x16_S16x256_S64x256_1_0_0_1_n_n.lhsIdx i q 1).val = (q ⟨0, by decide⟩).val :=
  dot_S64x16_S16x256_S64x256_1_0_0_1_n_n.lhsIdx_val_of_single rfl i q
theorem rhs_up_0 (i : S64x256.Idx) (q : dot_S64x16_S16x256_S64x256_1_0_0_1_n_n.contr.Idx) :
    (dot_S64x16_S16x256_S64x256_1_0_0_1_n_n.rhsIdx i q 0).val = (q ⟨0, by decide⟩).val :=
  dot_S64x16_S16x256_S64x256_1_0_0_1_n_n.rhsIdx_val_of_single rfl i q
theorem rhs_up_1 (i : S64x256.Idx) (q : dot_S64x16_S16x256_S64x256_1_0_0_1_n_n.contr.Idx) :
    (dot_S64x16_S16x256_S64x256_1_0_0_1_n_n.rhsIdx i q 1).val = (i 1).val := by
  unfold DotDims.rhsIdx
  rw [dif_neg (show ¬(1 : Fin S16x256.rank) ∈ dot_S64x16_S16x256_S64x256_1_0_0_1_n_n.rhsBatch by decide), dif_pos (show (1 : Fin S16x256.rank) ∈ dot_S64x16_S16x256_S64x256_1_0_0_1_n_n.rhsNonContracting by decide)]
  rfl

/-- Into the zero accumulator the product at (a, b) is the sum over the 16 inner positions of the
    left operand at (a, k) times the right operand at (k, b). -/
theorem up_apply {φ₁ φ₂ : FTy} (L : FVec Ideal S64x16 φ₁) (R : FVec Ideal S16x256 φ₂) (a : Fin 64) (b : Fin 256) :
    matmul (F := Ideal) dot_S64x16_S16x256_S64x256_1_0_0_1_n_n none L R (constant (F := Ideal) S64x256 .f32 0x00000000#32) (ix2 a b)
      = ∑ k : Fin 16, L (ix2 a k) * R (ix2 k b) := by
  simp only [matmul]
  rw [Ideal.matmul_constant_zero_apply, ← Equiv.sum_comp (contrEquiv1 dot_S64x16_S16x256_S64x256_1_0_0_1_n_n 16 rfl rfl).symm]
  refine Finset.sum_congr rfl fun k _ => ?_
  have hk := contrEquiv1_symm_val dot_S64x16_S16x256_S64x256_1_0_0_1_n_n 16 rfl rfl k
  have el : dot_S64x16_S16x256_S64x256_1_0_0_1_n_n.lhsIdx (ix2 a b) ((contrEquiv1 dot_S64x16_S16x256_S64x256_1_0_0_1_n_n 16 rfl rfl).symm k) = ix2 (n0 := 64) (n1 := 16) a k := funext fun c => Fin.ext (by
    match c with
    | ⟨0, _⟩ => exact lhs_up_0 _ _
    | ⟨1, _⟩ => exact (lhs_up_1 _ _).trans hk)
  have er : dot_S64x16_S16x256_S64x256_1_0_0_1_n_n.rhsIdx (ix2 a b) ((contrEquiv1 dot_S64x16_S16x256_S64x256_1_0_0_1_n_n 16 rfl rfl).symm k) = ix2 (n0 := 16) (n1 := 256) k b := funext fun c => Fin.ext (by
    match c with
    | ⟨0, _⟩ => exact (rhs_up_0 _ _).trans hk
    | ⟨1, _⟩ => exact rhs_up_1 _ _)
  rw [el, er]

/-! ## The layout operations around them -/

/-- The transposed weights at (k, q) are the weights at (q, k). -/
theorem weightT_apply {α : Type} (X : S256x4096.Idx → α) (h : S256x4096.Transposes [1, 0] S4096x256) (p : Fin 4096) (q : Fin 256) :
    transpose S4096x256 [1, 0] X h (ix2 p q) = X (ix2 q p) :=
  transpose_apply [1, 0] X h (ix2 p q) (ix2 q p) (fun c => match c with
    | ⟨0, _⟩ => rfl
    | ⟨1, _⟩ => rfl)

/-- The transposed factor A at (k, r) is A at (r, k). -/
theorem factorAT_apply {α : Type} (X : S16x4096.Idx → α) (h : S16x4096.Transposes [1, 0] S4096x16) (p : Fin 4096) (q : Fin 16) :
    transpose S4096x16 [1, 0] X h (ix2 p q) = X (ix2 q p) :=
  transpose_apply [1, 0] X h (ix2 p q) (ix2 q p) (fun c => match c with
    | ⟨0, _⟩ => rfl
    | ⟨1, _⟩ => rfl)

/-- The transposed rows of B at (r, q) are B at (q, r). -/
theorem factorBT_apply {α : Type} (X : S256x16.Idx → α) (h : S256x16.Transposes [1, 0] S16x256) (p : Fin 16) (q : Fin 256) :
    transpose S16x256 [1, 0] X h (ix2 p q) = X (ix2 q p) :=
  transpose_apply [1, 0] X h (ix2 p q) (ix2 q p) (fun c => match c with
    | ⟨0, _⟩ => rfl
    | ⟨1, _⟩ => rfl)

/-- The column of scales broadcast along the rows of the weights: at (q, k) it is the scale of row q. -/
theorem scaleCol_apply {α : Type} (Y : S256x1.Idx → α) (h : S256x1.Broadcasts S256x4096) (q : Fin 256) (k : Fin 4096) :
    broadcastTo S256x4096 Y h (ix2 q k) = Y (ix2 q (0 : Fin 1)) :=
  broadcastTo_apply Y h (ix2 q k) (ix2 q (0 : Fin 1)) (fun a => match a with
    | ⟨0, _⟩ => by show q.val = if (256 : Nat) = 1 then 0 else q.val; rw [if_neg (by decide)]
    | ⟨1, _⟩ => by show 0 = if (1 : Nat) = 1 then 0 else k.val; rw [if_pos rfl])

/-! ## The stored value at an index -/

/-- The body's stored value at (n, q), as sums over the loaded blocks. -/
theorem payload_apply (v0 : Vec Ideal S64x4096 .f32) (v2 : Vec Ideal S256x4096 .i32) (v3 : Vec Ideal S256x1 .f32)
    (v11 : Vec Ideal S16x4096 .f32) (v13 : Vec Ideal S256x16 .f32) (n : Fin 64) (q : Fin 256) :
    k0_pay1 (F := Ideal) v0 v2 v3 v11 v13 (ix2 n q)
      = (∑ k : Fin 4096, v0 (ix2 n k) * (FloatOps.sitofp (F := Ideal) .f32 (v2 (ix2 q k)) * v3 (ix2 q (0 : Fin 1))))
        + (∑ r : Fin 16, (∑ k : Fin 4096, v0 (ix2 n k) * v11 (ix2 r k)) * v13 (ix2 q r)) * Ideal.ofBits .f32 0x40000000#32 := by
  unfold k0_pay1
  simp only [addf_apply, mulf_apply, broadcast_apply, base_apply, down_apply, up_apply, truncf_apply, shapeCast_self]
  refine congrArg₂ (· + ·) (Finset.sum_congr rfl fun k _ => ?_)
    (congrArg₂ (· * ·) (Finset.sum_congr rfl fun r _ => ?_) rfl)
  · rw [weightT_apply, truncf_apply, mulf_apply, sitofp_apply, scaleCol_apply]
  · rw [factorBT_apply, truncf_apply]
    refine congrArg₂ (· * ·) (Finset.sum_congr rfl fun k _ => ?_) rfl
    rw [factorAT_apply, truncf_apply]

/-- Row `q` of the 256-row block number `b`, as a row of the whole array. -/
def row (b : Fin 43) (q : Fin 256) : Fin 11008 := ⟨b.val * 256 + q.val, by have := b.isLt; have := q.isLt; omega⟩

/-- If the loaded blocks are the whole `x` and `A` and rows 256·b … of the weights, of the one-column
    scales and of `B`, then the stored value at `j` = (n, q) is the specification's entry (n, 256·b + q),
    the scale of a feature being the entry of the scale column in its row. -/
theorem payload_eq_entry (X : FVec Ideal S64x4096 .f32) (W : IVec S11008x4096 32) (Sc : FVec Ideal S11008x1 .f32)
    (A : FVec Ideal S16x4096 .f32) (B : FVec Ideal S11008x16 .f32)
    (v0 : Vec Ideal S64x4096 .f32) (v2 : Vec Ideal S256x4096 .i32) (v3 : Vec Ideal S256x1 .f32)
    (v11 : Vec Ideal S16x4096 .f32) (v13 : Vec Ideal S256x16 .f32) (b : Fin 43)
    (h0 : ∀ (n : Fin 64) (k : Fin 4096), v0 (ix2 n k) = X (ix2 n k))
    (h2 : ∀ (q : Fin 256) (k : Fin 4096), v2 (ix2 q k) = W (ix2 (row b q) k))
    (h3 : ∀ q : Fin 256, v3 (ix2 q (0 : Fin 1)) = Sc (ix2 (row b q) (0 : Fin 1)))
    (h11 : ∀ (r : Fin 16) (k : Fin 4096), v11 (ix2 r k) = A (ix2 r k))
    (h13 : ∀ (q : Fin 256) (r : Fin 16), v13 (ix2 q r) = B (ix2 (row b q) r))
    (j : S64x256.Idx) :
    k0_pay1 (F := Ideal) v0 v2 v3 v11 v13 j
      = Cert.QLora.entry X W (fun o => Sc (ix2 o (0 : Fin 1))) A B (j 0) (row b (j 1)) := by
  obtain ⟨n, q, rfl⟩ : ∃ (n : Fin 64) (q : Fin 256), j = ix2 n q := ⟨j 0, j 1, eq_ix2 j⟩
  rw [payload_apply]
  show _ = Cert.QLora.entry X W (fun o => Sc (ix2 o (0 : Fin 1))) A B n (row b q)
  unfold Cert.QLora.entry Cert.QLora.base Cert.QLora.lowRank Cert.QLora.down
  simp only [h0, h2, h3, h11, h13]

end Cert.KernelIdeal.Body

end
-- ==== Proof.KernelArray.lean ====
/-
  From blocks to the array.

  The grid has 43 points. At point t the pipeline hands the body the whole of `x` and of `A`, and rows
  256·t … 256·t + 255 of the integer weights, of the one-column scales and of `B`; the body's result is
  written back as columns 256·t … 256·t + 255 of the 64 × 11008 output. By the body's value at an
  index, what point t writes back is that block of columns of the specified output; the 43 blocks of
  columns fill the output (column o lies in block o / 256), so after the run the output array is the
  specified output of the arrays the region was entered with. Of those, four are the arguments as
  launched, and the one-column scales are the scale vector reshaped: its entry in row o is the
  vector's entry o.
-/
import proofs.«121538_j74844100100831_1_alg».proof.Proof.Gen.KernelIdeal.Value
import proofs.«121538_j74844100100831_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Body
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 43 points: `x` and `A` stay at block (0, 0); the weights,
    the scales and `B` are at block row t; the output is at block column t. -/
theorem index_maps : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val :=
  (by decide +kernel : ∀ t : Fin grid0.N, _)

/-- A grid point as a block number below 43. -/
def blockOf (t : Fin cfg0.N) : Fin 43 := ⟨t.val, lt_of_lt_of_eq t.isLt N_0⟩

/-! ## The output array, as a function of the arrays the region finds -/

/-- The specified output of the arrays as the region finds them; the scale of feature o is the entry of
    the one-column scales in row o. -/
def found (c : Dev nD) : Buf (Elt Ideal) ((c : Thread nD τ).loc main_v1) :=
  Cert.QLora.output (V m c main_arg0) (V m c main_arg1) (fun o => V m c main_v0 (ix2 o (0 : Fin 1)))
    (V m c main_arg3) (V m c main_arg4)

/-! ## Each input block, as rows of its array -/

theorem tokens_block (c : Dev nD) (t : Fin cfg0.N) (n : Fin 64) (k : Fin 4096) :
    (iblk m c 0 t : Vec Ideal S64x4096 .f32) (ix2 n k) = (V m c main_arg0 : Vec Ideal S64x4096 .f32) (ix2 n k) := by
  obtain ⟨e0, e1, -⟩ := index_maps t
  show V m c main_arg0 (((cfg0.win 0).blk t).view.emb (ix2 n k)) = V m c main_arg0 (ix2 n k)
  refine congrArg _ (funext fun a => Fin.ext ?_)
  match a with
  | ⟨0, _⟩ => show win0_0.index t (0 : Fin 2) * 64 + 1 * n.val = n.val; omega
  | ⟨1, _⟩ => show win0_0.index t (1 : Fin 2) * 4096 + 1 * k.val = k.val; omega

theorem weights_block (c : Dev nD) (t : Fin cfg0.N) (q : Fin 256) (k : Fin 4096) :
    (iblk m c 1 t : Vec Ideal S256x4096 .i32) (ix2 q k) = (V m c main_arg1 : Vec Ideal S11008x4096 .i32) (ix2 (row (blockOf t) q) k) := by
  obtain ⟨-, -, e0, e1, -⟩ := index_maps t
  show V m c main_arg1 (((cfg0.win 1).blk t).view.emb (ix2 q k)) = V m c main_arg1 (ix2 (row (blockOf t) q) k)
  refine congrArg _ (funext fun a => Fin.ext ?_)
  match a with
  | ⟨0, _⟩ => show win0_1.index t (0 : Fin 2) * 256 + 1 * q.val = t.val * 256 + q.val; omega
  | ⟨1, _⟩ => show win0_1.index t (1 : Fin 2) * 4096 + 1 * k.val = k.val; omega

theorem scales_block (c : Dev nD) (t : Fin cfg0.N) (q : Fin 256) :
    (iblk m c 2 t : Vec Ideal S256x1 .f32) (ix2 q (0 : Fin 1)) = (V m c main_v0 : Vec Ideal S11008x1 .f32) (ix2 (row (blockOf t) q) (0 : Fin 1)) := by
  obtain ⟨-, -, -, -, e0, e1, -⟩ := index_maps t
  show V m c main_v0 (((cfg0.win 2).blk t).view.emb (ix2 q (0 : Fin 1))) = V m c main_v0 (ix2 (row (blockOf t) q) (0 : Fin 1))
  refine congrArg _ (funext fun a => Fin.ext ?_)
  match a with
  | ⟨0, _⟩ => show win0_2.index t (0 : Fin 2) * 256 + 1 * q.val = t.val * 256 + q.val; omega
  | ⟨1, _⟩ => show win0_2.index t (1 : Fin 2) * 1 + 1 * 0 = 0; omega

theorem factorA_block (c : Dev nD) (t : Fin cfg0.N) (r : Fin 16) (k : Fin 4096) :
    (iblk m c 3 t : Vec Ideal S16x4096 .f32) (ix2 r k) = (V m c main_arg3 : Vec Ideal S16x4096 .f32) (ix2 r k) := by
  obtain ⟨-, -, -, -, -, -, e0, e1, -⟩ := index_maps t
  show V m c main_arg3 (((cfg0.win 3).blk t).view.emb (ix2 r k)) = V m c main_arg3 (ix2 r k)
  refine congrArg _ (funext fun a => Fin.ext ?_)
  match a with
  | ⟨0, _⟩ => show win0_3.index t (0 : Fin 2) * 16 + 1 * r.val = r.val; omega
  | ⟨1, _⟩ => show win0_3.index t (1 : Fin 2) * 4096 + 1 * k.val = k.val; omega

theorem factorB_block (c : Dev nD) (t : Fin cfg0.N) (q : Fin 256) (r : Fin 16) :
    (iblk m c 4 t : Vec Ideal S256x16 .f32) (ix2 q r) = (V m c main_arg4 : Vec Ideal S11008x16 .f32) (ix2 (row (blockOf t) q) r) := by
  obtain ⟨-, -, -, -, -, -, -, -, e0, e1, -⟩ := index_maps t
  show V m c main_arg4 (((cfg0.win 4).blk t).view.emb (ix2 q r)) = V m c main_arg4 (ix2 (row (blockOf t) q) r)
  refine congrArg _ (funext fun a => Fin.ext ?_)
  match a with
  | ⟨0, _⟩ => show win0_4.index t (0 : Fin 2) * 256 + 1 * q.val = t.val * 256 + q.val; omega
  | ⟨1, _⟩ => show win0_4.index t (1 : Fin 2) * 16 + 1 * r.val = r.val; omega

/-! ## What a point writes back -/

/-- Point t writes back columns 256·t … 256·t + 255 of the specified output. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero zero_offsets]
  simp only [View.ld_unit_zero (S := S64x4096) zero_offsets, View.ld_unit_zero (S := S256x4096) zero_offsets,
    View.ld_unit_zero (S := S256x1) zero_offsets, View.ld_unit_zero (S := S16x4096) zero_offsets,
    View.ld_unit_zero (S := S256x16) zero_offsets]
  obtain ⟨-, -, -, -, -, -, -, -, -, -, e0, e1⟩ := index_maps t
  funext j
  show k0_pay1 (F := Ideal) (iblk m c 0 t) (iblk m c 1 t) (iblk m c 2 t) (iblk m c 3 t) (iblk m c 4 t) j
    = found m c (((cfg0.win 5).blk t).view.emb j)
  refine (payload_eq_entry (V m c main_arg0) (V m c main_arg1) (V m c main_v0) (V m c main_arg3) (V m c main_arg4)
    (iblk m c 0 t) (iblk m c 1 t) (iblk m c 2 t) (iblk m c 3 t) (iblk m c 4 t) (blockOf t)
    (tokens_block m c t) (weights_block m c t) (scales_block m c t) (factorA_block m c t) (factorB_block m c t) j).trans ?_
  have hn : (j 0 : Fin 64) = (((cfg0.win 5).blk t).view.emb j) 0 := Fin.ext (by
    show (j 0).val = win0_5.index t (0 : Fin 2) * 64 + 1 * (j 0).val; omega)
  have ho : row (blockOf t) (j 1) = (((cfg0.win 5).blk t).view.emb j) 1 := Fin.ext (by
    show t.val * 256 + (j 1).val = win0_5.index t (1 : Fin 2) * 256 + 1 * (j 1).val; omega)
  show _ = Cert.QLora.entry _ _ _ _ _ ((((cfg0.win 5).blk t).view.emb j) 0) ((((cfg0.win 5).blk t).view.emb j) 1)
  rw [← hn, ← ho]

/-! ## The blocks fill the output -/

/-- An index of the output is in point t's block iff each coordinate is in the block's range on its axis. -/
theorem mem_block (t : Fin cfg0.N) (i : S64x11008.Idx) :
    i ∈ ((cfg0.win 5).blk t).view.set ↔ ∀ a : Fin 2, win0_5.index t a * S64x256.size a ≤ (i a).val ∧ (i a).val < win0_5.index t a * S64x256.size a + S64x256.size a := by
  show i ∈ ((View.whole main_v1).slice (win0_5.rect t)).set ↔ _
  rw [View.set_slice_whole, Rect.mem_set_unit]
  exact Iff.rfl

/-- Column o lies in the block of point o / 256. -/
theorem covered (i : S64x11008.Idx) :
    ∃ t : Fin cfg0.N, (cfg0.win 5).flush t = true ∧ i ∈ ((cfg0.win 5).blk t).view.set := by
  have h0 : (i 0).val < 64 := (i 0).isLt
  have h1 : (i 1).val < 11008 := (i 1).isLt
  obtain ⟨t, ht⟩ : ∃ t : Fin cfg0.N, t.val = (i 1).val / 256 :=
    ⟨⟨(i 1).val / 256, by rw [show cfg0.N = 43 from N_0]; omega⟩, rfl⟩
  obtain ⟨-, -, -, -, -, -, -, -, -, -, e0, e1⟩ := index_maps t
  refine ⟨t, flush0_5 t, ?_⟩
  rw [mem_block]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 256 ≤ (i 1).val ∧ (i 1).val < win0_5.index t (1 : Fin 2) * 256 + 256; omega

/-- So after the run the output array is the specified output of the arrays the region found. -/
theorem final_found (c : Dev nD) : (dats m 0 c).arrAt 5 cfg0.N = found m c :=
  (dats m 0 c).arrAt_eq_of_cover 5 (found m c) (fun t _ => flushed_eq m c t) covered

/-! ## The arrays the region finds, in terms of the arguments -/

/-- The one-column scales are the scale vector reshaped: row o holds the vector's entry o. -/
theorem scale_entry (c : Dev nD) (o : Fin 11008) :
    (V m c main_v0 : Vec Ideal S11008x1 .f32) (ix2 o (0 : Fin 1))
      = (m ((c : Thread nD τ).loc main_arg2) : Vec Ideal S11008 .f32) (ix1 o) := by
  have e : (V m c main_v0 : Vec Ideal S11008x1 .f32)
      = shapeCast S11008x1 (m ((c : Thread nD τ).loc main_arg2) : Vec Ideal S11008 .f32) shapeCasts_S11008_S11008x1 := by
    dsimp only [V, hostOps0]; after_results; rfl
  rw [e]
  exact shapeCast_apply _ _ (ix2 o (0 : Fin 1)) (ix1 o) (by
    rw [Shape.rowMajor_val_one, Shape.rowMajor_val_two]
    show o.val = o.val * 1 + 0
    omega)

/-- The specified output of the arguments as launched. -/
def result (c : Dev nD) : Buf (Elt Ideal) ((c : Thread nD τ).loc main_v1) :=
  Cert.QLora.output (m ((c : Thread nD τ).loc main_arg0)) (m ((c : Thread nD τ).loc main_arg1))
    (fun o => (m ((c : Thread nD τ).loc main_arg2) : Vec Ideal S11008 .f32) (ix1 o))
    (m ((c : Thread nD τ).loc main_arg3)) (m ((c : Thread nD τ).loc main_arg4))

theorem found_eq_result (c : Dev nD) : found m c = result m c := by
  unfold found result
  rw [V_main_arg0, V_main_arg1, V_main_arg3, V_main_arg4]
  congr 1
  funext o
  exact scale_entry m c o

/-! ## The run, read -/

/-- Every weakly fair execution of the kernel's program ends with the output array at the specified
    output of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_found m c).trans (found_eq_result m c)), (h c).2⟩)
    (Cert.KernelIdeal.Value.run_blocks m ρ)

end Cert.KernelIdeal.Whole

end
-- ==== Proof.lean ====
/-
  The kernel and its reference compute one function of their arguments over the extended reals.

  Both take tokens x (64 × 4096), integer weights w (11008 × 4096) with a scale per output feature,
  and low-rank factors A (16 × 4096) and B (11008 × 16), and return the 64 × 11008 array whose entry
  (n, o) is

      Σ_k x[n,k] · (w[o,k] · scale[o])  +  (Σ_r (Σ_k x[n,k] · A[r,k]) · B[o,r]) · 2

  (Proof/Spec.lean). The reference forms it from whole arrays: scale the weights, transpose, one
  product; then the two low-rank products, the factor 2, the sum (Proof/RefValue.lean). The kernel
  forms it 256 output features at a time over a grid of 43 points, each point multiplying the whole
  of x against 256 rows of the scaled weights and of B (Proof/KernelBody.lean), and the 43 blocks of
  columns fill the output (Proof/KernelArray.lean). Narrowing a float to a shorter format is the
  identity over the extended reals and a product into a zero accumulator is the plain sum of
  products, so the two sides agree term by term: no law beyond renaming indices is used, and the
  finiteness of the inputs is not needed.

  The frames of the two kernel programs are the generated ones; the reference's frame is its
  generated run with the result dropped. The idealization rewrote no operation, so there is nothing
  to preserve.
-/
import proofs.«121538_j74844100100831_1_alg».proof.Defs
import proofs.«121538_j74844100100831_1_alg».proof.Proof.Gen.Kernel
import proofs.«121538_j74844100100831_1_alg».proof.Proof.Gen.Kernel.Skeleton
import proofs.«121538_j74844100100831_1_alg».proof.Proof.Gen.Kernel.Launch
import proofs.«121538_j74844100100831_1_alg».proof.Proof.Gen.Kernel.Points
import proofs.«121538_j74844100100831_1_alg».proof.Proof.Gen.Kernel.Frame
import proofs.«121538_j74844100100831_1_alg».proof.Proof.Gen.KernelIdeal
import proofs.«121538_j74844100100831_1_alg».proof.Proof.Gen.KernelIdeal.Skeleton
import proofs.«121538_j74844100100831_1_alg».proof.Proof.Gen.KernelIdeal.Launch
import proofs.«121538_j74844100100831_1_alg».proof.Proof.Gen.KernelIdeal.Points
import proofs.«121538_j74844100100831_1_alg».proof.Proof.Gen.KernelIdeal.Frame
import proofs.«121538_j74844100100831_1_alg».proof.Proof.Gen.ReferenceIdeal
import proofs.«121538_j74844100100831_1_alg».proof.Proof.Gen.Pre_finite_inputs
import proofs.«121538_j74844100100831_1_alg».proof.Proof.Gen.KernelIdeal.Value
import proofs.«121538_j74844100100831_1_alg».proof.Proof.Gen.ReferenceIdeal.Run
import proofs.«121538_j74844100100831_1_alg».proof.Proof.Gen.ReferenceIdeal.Read
import proofs.«121538_j74844100100831_1_alg».proof.Proof.RefValue
import proofs.«121538_j74844100100831_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's output array and the reference's
    result both end at the specified output of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.stage_eq_output]
  obtain ⟨e0, e1, e2, e3, e4⟩ := hagree c
  rw [e0, e1, e2, e3, e4]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
